-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S192 : Shape := ⟨1, ![192]⟩
abbrev S32x4096 : Shape := ⟨2, ![32, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S192 : S_.BroadcastsInDim S192 (![] : Fin 0 → Fin S192.rank)
  reducesTo_S192_S_d0 : S192.ReducesTo [0] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S192 .f32) (main_arg8 : FVec F S32x4096 .f32) (main_arg9 : FVec F S4096 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S32x4096 .f32 := Host.absf main_arg8
  let main_cst_14 : FVec F S_ .f32 := constant S_ .f32 0x7F800000#32
  let main_v40 : FVec F S32x4096 .f32 := broadcastInDim S32x4096 ![] bcast_S_S32x4096 main_cst_14
  let main_v41 : IVec S32x4096 1 := cmpf .olt main_v39 main_v40
  let main_c_15 : IVec S_ 1 := constantI S_ 1 1#1
  let main_v42 : IVec S_ 1 := (fun x v => Host.reduce IntOp.andi x v reducesTo_S32x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S64 .f32) (main_arg5 : FVec F S64x32 .f32) (main_arg6 : FVec F S32 .f32) (main_arg7 : FVec F S192 .f32) (main_arg8 : FVec F S32x4096 .f32) (main_arg9 : FVec F S4096 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S16384x4096 .f32) (main_arg1 : FVec F S4096x128 .f32) (main_arg2 : FVec F S128 .f32) (main_arg3 : FVec F S128x64 .f32) (main_arg4 : FVec F S64 .f32) (main_arg5 : FVec F S64x32 .f32) (main_arg6 : FVec F S32 .f32) (main_arg7 : FVec F S192 .f32) (main_arg8 : FVec F S32x4096 .f32) (main_arg9 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_v13 main_v16
-- ==== Kernel.lean ====
abbrev S16384x4096 : Shape := ⟨2, ![16384, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S192 : Shape := ⟨1, ![192]⟩
abbrev S32x4096 : Shape := ⟨2, ![32, 4096]⟩
abbrev S4096 : Shape := ⟨1, ![4096]⟩
abbrev S6x32 : Shape := ⟨2, ![6, 32]⟩
abbrev S_ : Shape := ⟨0, ![]⟩
abbrev S1x128 : Shape := ⟨2, ![1, 128]⟩
abbrev S1x64 : Shape := ⟨2, ![1, 64]⟩
abbrev S1x32 : Shape := ⟨2, ![1, 32]⟩
abbrev S1x4096 : Shape := ⟨2, ![1, 4096]⟩
abbrev S512x4096 : Shape := ⟨2, ![512, 4096]⟩
abbrev S512x128 : Shape := ⟨2, ![512, 128]⟩
abbrev S512x64 : Shape := ⟨2, ![512, 64]⟩
abbrev S512x32 : Shape := ⟨2, ![512, 32]⟩

abbrev nBuf : Space → Nat
  | .hbm => 19
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S192, .f32⟩
  | .hbm, ⟨8, _⟩ => ⟨S32x4096, .f32⟩
  | .hbm, ⟨9, _⟩ => ⟨S4096, .f32⟩
  | .hbm, ⟨10, _⟩ => ⟨S6x32, .f32⟩
  | .hbm, ⟨11, _⟩ => ⟨S_, .f32⟩
  | .hbm, ⟨12, _⟩ => ⟨S32, .f32⟩
  | .hbm, ⟨13, _⟩ => ⟨S1x128, .f32⟩
  | .hbm, ⟨14, _⟩ => ⟨S1x64, .f32⟩
  | .hbm, ⟨15, _⟩ => ⟨S1x32, .f32⟩
  | .hbm, ⟨16, _⟩ => ⟨S1x32, .f32⟩
  | .hbm, ⟨17, _⟩ => ⟨S1x4096, .f32⟩
  | .hbm, ⟨18, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S1x32, .f32⟩
  | .local _ .vmem, ⟨9, _⟩ => ⟨S32x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S192_S6x32 : S192.ShapeCasts S6x32
  reducesTo_S6x32_S32_d0 : S6x32.ReducesTo [0] S32
  h_S_ : 0 < S_.numel
  shapeCasts_S128_S1x128 : S128.ShapeCasts S1x128
  shapeCasts_S64_S1x64 : S64.ShapeCasts S1x64
  shapeCasts_S32_S1x32 : S32.ShapeCasts S1x32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x4096_S32x4096_0_0 : ∀ a, (![0, 0] : Fin 2 → Nat) a + S32x4096.size a ≤ S32x4096.size a
  h_S32x4096 : 0 < S32x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x4096_S4096x128_S512x128_1_0_0_1_n_n_wf : DotDims.WF S512x4096 S4096x128 S512x128 [1] [0] [0] [1] [] []
  dot_S512x128_S128x64_S512x64_1_0_0_1_n_n_wf : DotDims.WF S512x128 S128x64 S512x64 [1] [0] [0] [1] [] []
  dot_S512x64_S64x32_S512x32_1_0_0_1_n_n_wf : DotDims.WF S512x64 S64x32 S512x32 [1] [0] [0] [1] [] []
  dot_S512x32_S32x4096_S512x4096_1_0_0_1_n_n_wf : DotDims.WF S512x32 S32x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x4096.size a ≤ S32x4096.size a
  hwx0_8 : ∀ i : grid0.Coords, EltTy.bits .f32 = 32 ∨ (Rect.block (s := S32x4096) S32x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x4096.size a ≤ S16384x4096.size a
  hwx0_10 : ∀ i : grid0.Coords, EltTy.bits .f32 = 32 ∨ (Rect.block (s := S16384x4096) S512x4096.size (cc0_transform_10 i) (hinb0_10 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x128 : Shape := ⟨2, ![4096, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S192 : Shape := ⟨1, ![192]⟩
abbrev S32x4096 : Shape := ⟨2, ![32, 4096]⟩
abbrev S4096 : Shape := ⟨1, ![4096]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S6x32 : Shape := ⟨2, ![6, 32]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S192, .f32⟩
  | .hbm, ⟨8, _⟩ => ⟨S32x4096, .f32⟩
  | .hbm, ⟨9, _⟩ => ⟨S4096, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S_, .f32⟩
  | .hbm, ⟨22, _⟩ => ⟨S16384x64, .f32⟩
  | .hbm, ⟨23, _⟩ => ⟨S16384x64, .f32⟩
  | .hbm, ⟨24, _⟩ => ⟨S16384x32, .f32⟩
  | .hbm, ⟨25, _⟩ => ⟨S1x32, .f32⟩
  | .hbm, ⟨26, _⟩ => ⟨S16384x32, .f32⟩
  | .hbm, ⟨27, _⟩ => ⟨S16384x32, .f32⟩
  | .hbm, ⟨28, _⟩ => ⟨S6x32, .f32⟩
  | .hbm, ⟨29, _⟩ => ⟨S_, .f32⟩
  | .hbm, ⟨30, _⟩ => ⟨S32, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  shapeCasts_S192_S6x32 : S192.ShapeCasts S6x32
  reducesTo_S6x32_S32_d0 : S6x32.ReducesTo [0] S32
  h_S_ : 0 < S_.numel
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x128_S16384x128_1_0_0_1_n_n_wf : DotDims.WF S16384x4096 S4096x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x4096_S16384x4096_1_0_0_1_n_n_wf : DotDims.WF S16384x32 S32x4096 S16384x4096 [1] [0] [0] [1] [] []

variable [Facts₀]

def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibDenseRelu.lean ====
/-
  A RECTIFIED AFFINE LAYER WITH OPERANDS NARROWED TO bf16, read at an entry, at the extended reals. Over Proof/LibDense.lean
  (a product of an [M, K] matrix with a [K, N] matrix as a sum over `Fin K`, and `affine`, the layer entry by entry):

  * `relu`, `denseRelu`: the rectifier (the larger of an entry and the value of the f32 zero word) and the rectified layer;
  * `rowBroadcast_apply`, `vec_affine`, `vec_relu`: the layer as a vector unit writes it — both matrix operands narrowed
    to bf16 (the identity at the extended reals), a block product into a zero accumulator, the [1, N] bias row repeated
    down the block, the rectifier against a splat of the zero word;
  * `host_rowBroadcast_apply`, `host_relu`: the same as host operations write it — the bias vector made a row and then
    repeated (`Cert.Lib.Dense.host_affine_row` reads the affine part), the zero as a rank-0 splat.

  Every statement holds at any M, K, N.
-/
import proofs.«162932_j65481071396601_1_alg».proof.Proof.LibDense

noncomputable section
namespace Cert.Lib.DenseRelu
open Idealize.ShloMosaic
open Idealize.ShloMosaic.ValueIdx
open Cert.Lib.Dense

/-- The rectifier: the larger of an entry and the value of the f32 zero word. -/
def relu (y : EReal) : EReal := FloatOps.maximumf (F := Ideal) (φ := .f32) y (Scalar.ofBits .f32 0x00000000#32)

/-- A rectified affine layer, entry by entry. -/
def denseRelu {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => relu (affine X W B j)

/-! ## As a vector unit writes it -/

/-- A [1, N] row repeated down M rows, read at an entry: the row's entry of that column. -/
theorem rowBroadcast_apply {M N : Nat} (b : FVec Ideal ⟨2, ![1, N]⟩ .f32)
    (sb : (⟨2, ![1, N]⟩ : Shape).ShapeCasts ⟨2, ![1, N]⟩) (bt : (⟨2, ![1, N]⟩ : Shape).Broadcasts ⟨2, ![M, N]⟩)
    (y : (⟨2, ![M, N]⟩ : Shape).Idx) :
    broadcastTo ⟨2, ![M, N]⟩ (shapeCast ⟨2, ![1, N]⟩ b sb) bt y = b (ix2 0 (y 1)) := by
  rw [shapeCast_self, broadcastTo_apply b bt y (ix2 0 (y 1))]
  intro a
  match a with
  | ⟨0, _⟩ => simp
  | ⟨1, _⟩ =>
    show (y 1).val = if N = 1 then 0 else (y 1).val
    split_ifs with h
    · have := (y 1).isLt; simp at this; omega
    · rfl

/-- A block product of operands narrowed to bf16, into a zero accumulator, plus the bias row repeated down the block:
    the affine layer. Narrowing is the identity at the extended reals. -/
theorem vec_affine {M K N : Nat} (x : FVec Ideal ⟨2, ![M, K]⟩ .f32) (w : FVec Ideal ⟨2, ![K, N]⟩ .f32) (b : FVec Ideal ⟨2, ![1, N]⟩ .f32)
    (hx hw : FTy.bf16.bits < FTy.f32.bits)
    (sb : (⟨2, ![1, N]⟩ : Shape).ShapeCasts ⟨2, ![1, N]⟩) (bt : (⟨2, ![1, N]⟩ : Shape).Broadcasts ⟨2, ![M, N]⟩) :
    addf (matmul (DotDims.plain M K N) none (truncf .bf16 x hx) (truncf .bf16 w hw) (constant ⟨2, ![M, N]⟩ .f32 0x00000000#32))
        (broadcastTo ⟨2, ![M, N]⟩ (shapeCast ⟨2, ![1, N]⟩ b sb) bt) = affine x w b := by
  funext y
  show FloatOps.matmul (DotDims.plain M K N) none x w (constant _ .f32 0x00000000#32) y
      + broadcastTo ⟨2, ![M, N]⟩ (shapeCast ⟨2, ![1, N]⟩ b sb) bt y = _
  rw [plain_matmul_apply, rowBroadcast_apply]
  rfl

/-- The rectifier against a splat of the zero word. -/
theorem vec_relu {S : Shape} (Y : FVec Ideal S .f32) :
    maximumf Y (broadcast S (Scalar.ofBits .f32 0x00000000#32)) = fun j => relu (Y j) := rfl

/-! ## As host operations write it -/

/-- A bias vector made a row and the row repeated down M rows, read at an entry: the vector's entry of that column. -/
theorem host_rowBroadcast_apply {M N : Nat} (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) (j : (⟨2, ![M, N]⟩ : Shape).Idx) :
    broadcastInDim ⟨2, ![M, N]⟩ ![0, 1] e2 (broadcastInDim ⟨2, ![1, N]⟩ ![1] e1 b) j = biasRow b (ix2 0 (j 1)) := by
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectifier: the larger of an array and the rank-0 zero splat. -/
theorem host_relu {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = fun j => relu (Y j) := by
  funext j
  show FloatOps.maximumf (Y j) (broadcastInDim S ![] e (constant (F := Ideal) ⟨0, ![]⟩ .f32 0x00000000#32) j) = _
  rw [splat0_apply]
  rfl

end Cert.Lib.DenseRelu
-- ==== Proof.Net.lean ====
/-
  THE NETWORK BOTH PROGRAMS COMPUTE, entry by entry over the extended reals: an encoder of two rectified affine layers
  and one plain affine layer (4096 → 128 → 64 → 32), an angle layer (the cosine of the latent entry plus the offset
  row's entry of its column), and an affine decoder (32 → 4096). Every layer's entry (r, c) looks only at row r of the
  layer below, so the whole network's entry (r, c) looks only at row r of the input: a block of rows of the input
  gives the same entries as the whole input at the block's rows (`net_rows`).

  * `angle`, `net`: the angle layer and the composition of the layers, at any number M of input rows (the affine and
    rectified affine layers are Proof/LibDense.lean's and Proof/LibDenseRelu.lean's);
  * `angle_congr`, `net_rows`: an entry of row r is a function of row r of the input;
  * `vec_angle`, `host_angle`: the angle layer as a vector unit writes it (the offset row repeated down the block) and as
    host operations write it (the offset vector made a row and then repeated).
-/
import proofs.«162932_j65481071396601_1_alg».proof.Proof.LibDenseRelu

noncomputable section
namespace Cert.Net
open Idealize.ShloMosaic
open Idealize.ShloMosaic.ValueIdx
open Cert.Lib.Dense Cert.Lib.DenseRelu

/-- The angle layer: the cosine of an entry plus the offset row's entry of its column. -/
def angle {M N : Nat} (Z : (⟨2, ![M, N]⟩ : Shape).Idx → EReal) (O : (⟨2, ![1, N]⟩ : Shape).Idx → EReal) :
    (⟨2, ![M, N]⟩ : Shape).Idx → EReal := fun j => Ideal.cos (Z j + O (ix2 0 (j 1)))

/-- The whole network on M input rows. -/
def net (M : Nat) (X : (⟨2, ![M, 4096]⟩ : Shape).Idx → EReal)
    (W1 : (⟨2, ![4096, 128]⟩ : Shape).Idx → EReal) (B1 : (⟨2, ![1, 128]⟩ : Shape).Idx → EReal)
    (W2 : (⟨2, ![128, 64]⟩ : Shape).Idx → EReal) (B2 : (⟨2, ![1, 64]⟩ : Shape).Idx → EReal)
    (W3 : (⟨2, ![64, 32]⟩ : Shape).Idx → EReal) (B3 : (⟨2, ![1, 32]⟩ : Shape).Idx → EReal)
    (O : (⟨2, ![1, 32]⟩ : Shape).Idx → EReal)
    (Wd : (⟨2, ![32, 4096]⟩ : Shape).Idx → EReal) (Bd : (⟨2, ![1, 4096]⟩ : Shape).Idx → EReal) :
    (⟨2, ![M, 4096]⟩ : Shape).Idx → EReal :=
  affine (angle (affine (denseRelu (denseRelu X W1 B1) W2 B2) W3 B3) O) Wd Bd

/-- The angle layer at an entry only looks at the entry below it and at its column. -/
theorem angle_congr {Mb M N : Nat} (zb : (⟨2, ![Mb, N]⟩ : Shape).Idx → EReal) (Z : (⟨2, ![M, N]⟩ : Shape).Idx → EReal)
    (O : (⟨2, ![1, N]⟩ : Shape).Idx → EReal) (y : (⟨2, ![Mb, N]⟩ : Shape).Idx) (i : (⟨2, ![M, N]⟩ : Shape).Idx)
    (hz : zb y = Z i) (h1 : y 1 = i 1) : angle zb O y = angle Z O i := by
  unfold angle
  rw [hz, h1]

/-- Row r of the network's output is a function of row r of its input: if row `y 0` of `xb` is row `i 0` of `X` and the
    columns agree, the two networks have the same entry. -/
theorem net_rows {Mb M : Nat} (xb : (⟨2, ![Mb, 4096]⟩ : Shape).Idx → EReal) (X : (⟨2, ![M, 4096]⟩ : Shape).Idx → EReal)
    (W1 : (⟨2, ![4096, 128]⟩ : Shape).Idx → EReal) (B1 : (⟨2, ![1, 128]⟩ : Shape).Idx → EReal)
    (W2 : (⟨2, ![128, 64]⟩ : Shape).Idx → EReal) (B2 : (⟨2, ![1, 64]⟩ : Shape).Idx → EReal)
    (W3 : (⟨2, ![64, 32]⟩ : Shape).Idx → EReal) (B3 : (⟨2, ![1, 32]⟩ : Shape).Idx → EReal)
    (O : (⟨2, ![1, 32]⟩ : Shape).Idx → EReal)
    (Wd : (⟨2, ![32, 4096]⟩ : Shape).Idx → EReal) (Bd : (⟨2, ![1, 4096]⟩ : Shape).Idx → EReal)
    (y : (⟨2, ![Mb, 4096]⟩ : Shape).Idx) (i : (⟨2, ![M, 4096]⟩ : Shape).Idx) (h1 : y 1 = i 1)
    (hx : ∀ k : Fin 4096, xb (ix2 (y 0) k) = X (ix2 (i 0) k)) :
    net Mb xb W1 B1 W2 B2 W3 B3 O Wd Bd y = net M X W1 B1 W2 B2 W3 B3 O Wd Bd i := by
  unfold net
  refine affine_congr _ _ Wd Wd Bd Bd y i (fun k => ?_) (fun k => by rw [h1]) (by rw [h1])
  refine angle_congr _ _ O _ _ ?_ rfl
  refine affine_congr _ _ W3 W3 B3 B3 _ _ (fun k2 => ?_) (fun _ => rfl) rfl
  refine congrArg relu (affine_congr _ _ W2 W2 B2 B2 _ _ (fun k3 => ?_) (fun _ => rfl) rfl)
  refine congrArg relu (affine_congr _ _ W1 W1 B1 B1 _ _ (fun k4 => ?_) (fun _ => rfl) rfl)
  exact hx k4

/-! ## The layers as a vector unit writes them -/

/-- The cosine of a block plus the offset row repeated down the block: the angle layer. -/
theorem vec_angle {M N : Nat} (Z : FVec Ideal ⟨2, ![M, N]⟩ .f32) (o : FVec Ideal ⟨2, ![1, N]⟩ .f32)
    (so : (⟨2, ![1, N]⟩ : Shape).ShapeCasts ⟨2, ![1, N]⟩) (bt : (⟨2, ![1, N]⟩ : Shape).Broadcasts ⟨2, ![M, N]⟩) :
    cos (addf Z (broadcastTo ⟨2, ![M, N]⟩ (shapeCast ⟨2, ![1, N]⟩ o so) bt)) = angle Z o := by
  funext y
  show Ideal.cos (Z y + broadcastTo ⟨2, ![M, N]⟩ (shapeCast ⟨2, ![1, N]⟩ o so) bt y) = _
  rw [rowBroadcast_apply]
  rfl

/-! ## The layers as host operations write them -/

/-- The host's angle layer: the cosine of an array plus the offset vector made a row and repeated down the rows. -/
theorem host_angle {M N : Nat} (Z : FVec Ideal ⟨2, ![M, N]⟩ .f32) (o : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    Host.cos (addf Z (broadcastInDim ⟨2, ![M, N]⟩ ![0, 1] e2 (broadcastInDim ⟨2, ![1, N]⟩ ![1] e1 o))) = angle Z (biasRow o) := by
  funext j
  show Ideal.cos (Z j + broadcastInDim ⟨2, ![M, N]⟩ ![0, 1] e2 (broadcastInDim ⟨2, ![1, N]⟩ ![1] e1 o) j) = _
  rw [host_rowBroadcast_apply]
  rfl

end Cert.Net
-- ==== Proof.KerValue.lean ====
/-
  THE KERNEL'S RESULT ARRAY IS THE NETWORK on all 16384 rows. The kernel runs over 32 grid points; point t stages rows
  512 t … 512 t + 511 of the input, every weight matrix and bias row whole, and writes back a [512, 4096] block of the
  output at the same rows.

  * `body_eq`: the body's one store holds the network on the 512 staged rows (four block products of operands narrowed
    to bf16 into zero accumulators, each plus its bias row repeated down the block; two rectifiers; the cosine);
  * `wblk1` … `wblk9`: a weight or bias window's block, at every point, is its whole array (block index (0, 0), the
    block as large as the array); `bias1` … `offs`: the bias rows and the offset row the host operations before the
    call made (a bias vector reshaped to [1, N]; the parameter vector laid out as six rows of 32, summed from zero,
    reshaped to [1, 32]);
  * `flushed_eq`: what point t writes back is block t of the network on all rows — row p of the block depends only on
    row p of the staged input block, which is row 512 t + p of the input (`net_rows`);
  * `cover`, `final`, `run`: the 32 blocks tile the output, so after the run the output array is the network.
-/
import proofs.«162932_j65481071396601_1_alg».proof.Proof.Gen.KernelIdeal.Value
import proofs.«162932_j65481071396601_1_alg».proof.Proof.Net
import Idealize.ShloMosaic.Lib.StableHlo.Run

noncomputable section
namespace Cert.KernelIdeal.KerValue
open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Lib.Dense Cert.Lib.DenseRelu Cert.Net

variable (m : (ℓ : Loc nD τ sig) → Buf (Elt Ideal) ℓ) (ρ : Dev nD → PrngReg)

/-! ## The body -/

/-- Each of the body's four block products is a plain [M, K] by [K, N] product. -/
theorem dot1 : dot_S512x4096_S4096x128_S512x128_1_0_0_1_n_n = DotDims.plain 512 4096 128 := rfl
theorem dot2 : dot_S512x128_S128x64_S512x64_1_0_0_1_n_n = DotDims.plain 512 128 64 := rfl
theorem dot3 : dot_S512x64_S64x32_S512x32_1_0_0_1_n_n = DotDims.plain 512 64 32 := rfl
theorem dot4 : dot_S512x32_S32x4096_S512x4096_1_0_0_1_n_n = DotDims.plain 512 32 4096 := rfl

/-- The value the body stores is the network on the 512 staged rows. -/
theorem body_eq (v0 : Vec Ideal S512x4096 .f32) (v2 : Vec Ideal S4096x128 .f32) (v5 : Vec Ideal S1x128 .f32)
    (v12 : Vec Ideal S128x64 .f32) (v15 : Vec Ideal S1x64 .f32) (v22 : Vec Ideal S64x32 .f32) (v25 v29 : Vec Ideal S1x32 .f32)
    (v35 : Vec Ideal S32x4096 .f32) (v38 : Vec Ideal S1x4096 .f32) :
    k0_pay1 (F := Ideal) (k0_pay2 v0 v2 v5 v12 v15 v22 v25 v29) v35 v38 = net 512 v0 v2 v5 v12 v15 v22 v25 v29 v35 v38 := by
  unfold k0_pay1 k0_pay2
  dsimp only
  rw [dot1, dot2, dot3, dot4, vec_affine, vec_relu, vec_affine, vec_relu, vec_affine, vec_angle, vec_affine]
  rfl

/-! ## The windows' blocks -/

theorem hz : (![0, 0] : Fin 2 → Nat) = fun _ => 0 := funext fun a => by fin_cases a <;> rfl

/-- The input window and the output window move together, one block of 512 rows per point, over all 4096 columns. -/
theorem idx0 : ∀ t : Fin cfg0.N, win0_0.index t (0 : Fin 2) = t.val ∧ win0_0.index t (1 : Fin 2) = 0
    ∧ win0_10.index t (0 : Fin 2) = t.val ∧ win0_10.index t (1 : Fin 2) = 0 :=
  (by decide +kernel : ∀ t : Fin grid0.N, _)

/-- Every weight and bias window sits at block (0, 0) at every point. -/
theorem idxW : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- A block at block index (0, 0) that is as large as its array sits on the array: the array's index of the block's
    entry y, which on each axis is the block index times the extent plus the coordinate, is y. -/
theorem emb_zero {n0 n1 : Nat} (i y : (⟨2, ![n0, n1]⟩ : Shape).Idx) (k0 k1 : Nat) (h0 : k0 = 0) (h1 : k1 = 0)
    (e0 : (i 0).val = k0 * n0 + 1 * (y 0).val) (e1 : (i 1).val = k1 * n1 + 1 * (y 1).val) : i = y := by
  subst h0 h1
  funext a
  apply Fin.ext
  match a with
  | ⟨0, _⟩ => exact e0.trans (by show 0 * n0 + 1 * (y 0).val = (y 0).val; omega)
  | ⟨1, _⟩ => exact e1.trans (by show 0 * n1 + 1 * (y 1).val = (y 1).val; omega)

/-- So each weight or bias window's block, at every point, is its whole array. -/
theorem wblk1 (c : Dev nD) (t : Fin cfg0.N) : (iblk m c 1 t : S4096x128.Idx → EReal) = V m c main_arg1 :=
  funext fun y => congrArg (V m c main_arg1) (emb_zero _ y _ _ (idxW t).1.1 (idxW t).1.2 rfl rfl)
theorem wblk2 (c : Dev nD) (t : Fin cfg0.N) : (iblk m c 2 t : S1x128.Idx → EReal) = V m c main_v2 :=
  funext fun y => congrArg (V m c main_v2) (emb_zero _ y _ _ (idxW t).2.1.1 (idxW t).2.1.2 rfl rfl)
theorem wblk3 (c : Dev nD) (t : Fin cfg0.N) : (iblk m c 3 t : S128x64.Idx → EReal) = V m c main_arg3 :=
  funext fun y => congrArg (V m c main_arg3) (emb_zero _ y _ _ (idxW t).2.2.1.1 (idxW t).2.2.1.2 rfl rfl)
theorem wblk4 (c : Dev nD) (t : Fin cfg0.N) : (iblk m c 4 t : S1x64.Idx → EReal) = V m c main_v3 :=
  funext fun y => congrArg (V m c main_v3) (emb_zero _ y _ _ (idxW t).2.2.2.1.1 (idxW t).2.2.2.1.2 rfl rfl)
theorem wblk5 (c : Dev nD) (t : Fin cfg0.N) : (iblk m c 5 t : S64x32.Idx → EReal) = V m c main_arg5 :=
  funext fun y => congrArg (V m c main_arg5) (emb_zero _ y _ _ (idxW t).2.2.2.2.1.1 (idxW t).2.2.2.2.1.2 rfl rfl)
theorem wblk6 (c : Dev nD) (t : Fin cfg0.N) : (iblk m c 6 t : S1x32.Idx → EReal) = V m c main_v4 :=
  funext fun y => congrArg (V m c main_v4) (emb_zero _ y _ _ (idxW t).2.2.2.2.2.1.1 (idxW t).2.2.2.2.2.1.2 rfl rfl)
theorem wblk7 (c : Dev nD) (t : Fin cfg0.N) : (iblk m c 7 t : S1x32.Idx → EReal) = V m c main_v5 :=
  funext fun y => congrArg (V m c main_v5) (emb_zero _ y _ _ (idxW t).2.2.2.2.2.2.1.1 (idxW t).2.2.2.2.2.2.1.2 rfl rfl)
theorem wblk8 (c : Dev nD) (t : Fin cfg0.N) : (iblk m c 8 t : S32x4096.Idx → EReal) = V m c main_arg8 :=
  funext fun y => congrArg (V m c main_arg8) (emb_zero _ y _ _ (idxW t).2.2.2.2.2.2.2.1.1 (idxW t).2.2.2.2.2.2.2.1.2 rfl rfl)
theorem wblk9 (c : Dev nD) (t : Fin cfg0.N) : (iblk m c 9 t : S1x4096.Idx → EReal) = V m c main_v6 :=
  funext fun y => congrArg (V m c main_v6) (emb_zero _ y _ _ (idxW t).2.2.2.2.2.2.2.2.1 (idxW t).2.2.2.2.2.2.2.2.2 rfl rfl)

/-! ## The rows the host operations before the call made -/

/-- The offset vector: the 192 parameters laid out as six rows of 32, the rows summed from zero. -/
abbrev offsets (q : FVec Ideal S192 .f32) : FVec Ideal S32 .f32 :=
  Host.reduceAdd (shapeCast S6x32 q shapeCasts_S192_S6x32) (constant S_ .f32 0x00000000#32) reducesTo_S6x32_S32_d0 h_S_

theorem bias1 (c : Dev nD) : (V m c main_v2 : S1x128.Idx → EReal) = biasRow (m ((c : Thread nD τ).loc main_arg2)) := by
  have e : (V m c main_v2 : S1x128.Idx → EReal) = shapeCast S1x128 (m ((c : Thread nD τ).loc main_arg2)) shapeCasts_S128_S1x128 := by
    dsimp only [V, hostOps0]; after_results; rfl
  rw [e]; exact shapeCast_row _ _

theorem bias2 (c : Dev nD) : (V m c main_v3 : S1x64.Idx → EReal) = biasRow (m ((c : Thread nD τ).loc main_arg4)) := by
  have e : (V m c main_v3 : S1x64.Idx → EReal) = shapeCast S1x64 (m ((c : Thread nD τ).loc main_arg4)) shapeCasts_S64_S1x64 := by
    dsimp only [V, hostOps0]; after_results; rfl
  rw [e]; exact shapeCast_row _ _

theorem bias3 (c : Dev nD) : (V m c main_v4 : S1x32.Idx → EReal) = biasRow (m ((c : Thread nD τ).loc main_arg6)) := by
  have e : (V m c main_v4 : S1x32.Idx → EReal) = shapeCast S1x32 (m ((c : Thread nD τ).loc main_arg6)) shapeCasts_S32_S1x32 := by
    dsimp only [V, hostOps0]; after_results; rfl
  rw [e]; exact shapeCast_row _ _

theorem offs (c : Dev nD) : (V m c main_v5 : S1x32.Idx → EReal) = biasRow (offsets (m ((c : Thread nD τ).loc main_arg7))) := by
  have e : (V m c main_v5 : S1x32.Idx → EReal) = shapeCast S1x32 (offsets (m ((c : Thread nD τ).loc main_arg7))) shapeCasts_S32_S1x32 := by
    dsimp only [V, hostOps0]; after_results; rfl
  rw [e]; exact shapeCast_row _ _

theorem biasd (c : Dev nD) : (V m c main_v6 : S1x4096.Idx → EReal) = biasRow (m ((c : Thread nD τ).loc main_arg9)) := by
  have e : (V m c main_v6 : S1x4096.Idx → EReal) = shapeCast S1x4096 (m ((c : Thread nD τ).loc main_arg9)) shapeCasts_S4096_S1x4096 := by
    dsimp only [V, hostOps0]; after_results; rfl
  rw [e]; exact shapeCast_row _ _

/-! ## What a point writes back, and the final array -/

/-- The network on all 16384 rows, of the argument arrays: the bias vectors and the offset vector each as one row. -/
def G (c : Dev nD) : S16384x4096.Idx → EReal :=
  net 16384 (m ((c : Thread nD τ).loc main_arg0)) (m ((c : Thread nD τ).loc main_arg1)) (biasRow (m ((c : Thread nD τ).loc main_arg2))) (m ((c : Thread nD τ).loc main_arg3)) (biasRow (m ((c : Thread nD τ).loc main_arg4))) (m ((c : Thread nD τ).loc main_arg5)) (biasRow (m ((c : Thread nD τ).loc main_arg6)))
    (biasRow (offsets (m ((c : Thread nD τ).loc main_arg7)))) (m ((c : Thread nD τ).loc main_arg8)) (biasRow (m ((c : Thread nD τ).loc main_arg9)))

/-- What the body leaves in the output's staging buffer at point t: the network on the staged block of 512 input rows,
    over the whole weight arrays and the bias and offset rows. -/
theorem block_eq (c : Dev nD) (t : Fin cfg0.N) :
    out0_10 (iblk m c 0 t) (iblk m c 1 t) (iblk m c 2 t) (iblk m c 3 t) (iblk m c 4 t) (iblk m c 5 t) (iblk m c 6 t) (iblk m c 7 t) (iblk m c 8 t) (iblk m c 9 t)
      = net 512 (iblk m c 0 t : S512x4096.Idx → EReal) (m ((c : Thread nD τ).loc main_arg1)) (biasRow (m ((c : Thread nD τ).loc main_arg2))) (m ((c : Thread nD τ).loc main_arg3)) (biasRow (m ((c : Thread nD τ).loc main_arg4))) (m ((c : Thread nD τ).loc main_arg5)) (biasRow (m ((c : Thread nD τ).loc main_arg6)))
          (biasRow (offsets (m ((c : Thread nD τ).loc main_arg7)))) (m ((c : Thread nD τ).loc main_arg8)) (biasRow (m ((c : Thread nD τ).loc main_arg9))) := by
  unfold out0_10
  rw [View.canon_unit_zero hz]
  simp only [View.ld_unit_zero (S := S512x4096) hz, View.ld_unit_zero (S := S4096x128) hz, View.ld_unit_zero (S := S1x128) hz,
    View.ld_unit_zero (S := S128x64) hz, View.ld_unit_zero (S := S1x64) hz, View.ld_unit_zero (S := S64x32) hz,
    View.ld_unit_zero (S := S1x32) hz, View.ld_unit_zero (S := S32x4096) hz, View.ld_unit_zero (S := S1x4096) hz]
  rw [body_eq, wblk1 m c t, wblk2 m c t, wblk3 m c t, wblk4 m c t, wblk5 m c t, wblk6 m c t, wblk7 m c t, wblk8 m c t, wblk9 m c t,
    bias1, bias2, bias3, offs, biasd, V_main_arg1, V_main_arg3, V_main_arg5, V_main_arg8]

/-- WHAT POINT t WRITES BACK is block t of the network on all rows: row p of the block is a function of row p of the
    staged input block, which is row 512 t + p of the input. -/
theorem flushed_eq (c : Dev nD) (t : Fin cfg0.N) :
    (dats m 0 c).flushed 10 t = ((cfg0.win 10).blk t).view.read (Elt Ideal) (G m c) := by
  rw [Value.flushed10, block_eq]
  obtain ⟨e0, e1, e2, e3⟩ := idx0 t
  funext y
  show net 512 (iblk m c 0 t : S512x4096.Idx → EReal) _ _ _ _ _ _ _ _ _ y = G m c (((cfg0.win 10).blk t).view.emb y)
  unfold G
  refine net_rows _ _ _ _ _ _ _ _ _ _ _ y _ ?_ (fun k => ?_)
  · apply Fin.ext
    show (y 1).val = win0_10.index t (1 : Fin 2) * 4096 + 1 * (y 1).val
    omega
  · show V m c main_arg0 (((cfg0.win 0).blk t).view.emb (ix2 (y 0) k)) = _
    rw [V_main_arg0]
    refine congrArg _ (funext fun a => Fin.ext ?_)
    match a with
    | ⟨0, _⟩ => show win0_0.index t (0 : Fin 2) * 512 + 1 * (y 0).val = win0_10.index t (0 : Fin 2) * 512 + 1 * (y 0).val; omega
    | ⟨1, _⟩ => show win0_0.index t (1 : Fin 2) * 4096 + 1 * k.val = k.val; omega

/-- An index of the output array is in point t's block iff each coordinate is in the block's range on its axis. -/
theorem mem_blk (t : Fin cfg0.N) (i : S16384x4096.Idx) :
    i ∈ ((cfg0.win 10).blk t).view.set ↔ ∀ a : Fin 2, win0_10.index t a * S512x4096.size a ≤ (i a).val ∧ (i a).val < win0_10.index t a * S512x4096.size a + S512x4096.size a := by
  show i ∈ ((View.whole main_v7).slice (win0_10.rect t)).set ↔ _
  rw [View.set_slice_whole, Rect.mem_set_unit]
  exact Iff.rfl

/-- Every block of 512 rows is some point's. -/
theorem idx_onto : ∀ q : Fin 32, ∃ t : Fin cfg0.N, win0_10.index t (0 : Fin 2) = q.val ∧ win0_10.index t (1 : Fin 2) = 0 :=
  (by decide +kernel : ∀ q : Fin 32, ∃ t : Fin grid0.N, _)

/-- The 32 blocks tile the output: row r is in the block of point r / 512. -/
theorem cover (i : S16384x4096.Idx) : ∃ t : Fin cfg0.N, (cfg0.win 10).flush t = true ∧ i ∈ ((cfg0.win 10).blk t).view.set := by
  have hi0 : (i 0).val < 16384 := (i 0).isLt
  have hi1 : (i 1).val < 4096 := (i 1).isLt
  obtain ⟨t, h0, h1⟩ := idx_onto ⟨(i 0).val / 512, by omega⟩
  have h0' : win0_10.index t (0 : Fin 2) = (i 0).val / 512 := h0
  refine ⟨t, flush0_10 t, ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 4096 ≤ (i 1).val ∧ (i 1).val < win0_10.index t (1 : Fin 2) * 4096 + 4096; omega

/-- THE OUTPUT ARRAY after the run is the network on all rows. -/
theorem final (c : Dev nD) : (dats m 0 c).arrAt 10 cfg0.N = G m c :=
  (dats m 0 c).arrAt_eq_of_cover 10 (G m c) (fun t _ => flushed_eq m c t) cover

/-- The kernel's run: every weakly fair execution ends with the output array at the network of the arguments, the
    arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KerValue
-- ==== Proof.RefValue.lean ====
/-
  THE REFERENCE'S RESULT IS THE NETWORK on all 16384 rows. The reference's run ends with its result array at the
  composed term of its host operations: three dot products each followed by a bias vector made a row and repeated down
  the rows (the first two then rectified against a rank-0 zero splat), the offset vector (the parameter vector laid
  out as six rows of 32 and the rows summed from zero) added the same way, the cosine, and a last dot product and
  bias. Each group is one layer of the network read as a whole array, so the term is `net 16384` of the arguments,
  the bias vectors and the offset vector each as the one row of a [1, N] matrix.
-/
import proofs.«162932_j65481071396601_1_alg».proof.Proof.Gen.ReferenceIdeal.Run
import proofs.«162932_j65481071396601_1_alg».proof.Proof.Net

noncomputable section
namespace Cert.ReferenceIdeal.RefValue
open Cert.ReferenceIdeal Cert.ReferenceIdeal.Gen Idealize.ShloMosaic Cert.Lib.Dense Cert.Lib.DenseRelu Cert.Net

/-- Each of the reference's four dot products is a plain [M, K] by [K, N] product. -/
theorem dotA : dot_S16384x4096_S4096x128_S16384x128_1_0_0_1_n_n = DotDims.plain 16384 4096 128 := rfl
theorem dotB : dot_S16384x128_S128x64_S16384x64_1_0_0_1_n_n = DotDims.plain 16384 128 64 := rfl
theorem dotC : dot_S16384x64_S64x32_S16384x32_1_0_0_1_n_n = DotDims.plain 16384 64 32 := rfl
theorem dotD : dot_S16384x32_S32x4096_S16384x4096_1_0_0_1_n_n = DotDims.plain 16384 32 4096 := rfl

/-- The offset vector: the 192 parameters laid out as six rows of 32, the rows summed from zero. -/
abbrev offsets (q : FVec Ideal S192 .f32) : FVec Ideal S32 .f32 :=
  Host.reduceAdd (shapeCast S6x32 q shapeCasts_S192_S6x32) (constant S_ .f32 0x00000000#32) reducesTo_S6x32_S32_d0 h_S_

/-- The reference run's result term is the network on all rows. -/
theorem result_eq (x0 : FVec Ideal S16384x4096 .f32) (x1 : FVec Ideal S4096x128 .f32) (x2 : FVec Ideal S128 .f32)
    (x3 : FVec Ideal S128x64 .f32) (x4 : FVec Ideal S64 .f32) (x5 : FVec Ideal S64x32 .f32) (x6 : FVec Ideal S32 .f32)
    (x7 : FVec Ideal S192 .f32) (x8 : FVec Ideal S32x4096 .f32) (x9 : FVec Ideal S4096 .f32) :
    addf (Host.dotGeneral dot_S16384x32_S32x4096_S16384x4096_1_0_0_1_n_n none (Host.cos (addf (addf (Host.dotGeneral dot_S16384x64_S64x32_S16384x32_1_0_0_1_n_n none (maximumf (addf (Host.dotGeneral dot_S16384x128_S128x64_S16384x64_1_0_0_1_n_n none (maximumf (addf (Host.dotGeneral dot_S16384x4096_S4096x128_S16384x128_1_0_0_1_n_n none (x0) (x1)) (broadcastInDim S16384x128 ![0, 1] bcast_S1x128_S16384x128_0_1 (broadcastInDim S1x128 ![1] bcast_S128_S1x128_1 (x2)))) (broadcastInDim S16384x128 ![] bcast_S_S16384x128 (constant S_ .f32 0x00000000#32))) (x3)) (broadcastInDim S16384x64 ![0, 1] bcast_S1x64_S16384x64_0_1 (broadcastInDim S1x64 ![1] bcast_S64_S1x64_1 (x4)))) (broadcastInDim S16384x64 ![] bcast_S_S16384x64 (constant S_ .f32 0x00000000#32))) (x5)) (broadcastInDim S16384x32 ![0, 1] bcast_S1x32_S16384x32_0_1 (broadcastInDim S1x32 ![1] bcast_S32_S1x32_1 (x6)))) (broadcastInDim S16384x32 ![0, 1] bcast_S1x32_S16384x32_0_1 (broadcastInDim S1x32 ![1] bcast_S32_S1x32_1 (Host.reduceAdd (shapeCast _ (x7) shapeCasts_S192_S6x32) (constant S_ .f32 0x00000000#32) reducesTo_S6x32_S32_d0 h_S_))))) (x8)) (broadcastInDim S16384x4096 ![0, 1] bcast_S1x4096_S16384x4096_0_1 (broadcastInDim S1x4096 ![1] bcast_S4096_S1x4096_1 (x9)))
      = net 16384 x0 x1 (biasRow x2) x3 (biasRow x4) x5 (biasRow x6) (biasRow (offsets x7)) x8 (biasRow x9) := by
  rw [dotA, dotB, dotC, dotD, host_affine_row, host_relu, host_affine_row, host_relu, host_affine_row, host_angle,
    host_affine_row]
  rfl

end Cert.ReferenceIdeal.RefValue
-- ==== Proof.lean ====
/- The proof of `Cert.Claim` (proofs.«162932_j65481071396601_1_alg».proof.Defs): a four-layer autoencoder with a cosine
   in the middle — x ↦ relu(x W1 + b1) ↦ relu(· W2 + b2) ↦ (· W3 + b3) ↦ cos(· + offset) ↦ (· Wd + bd), on 16384 rows of
   4096 entries, the offset the 192 parameters laid out as six rows of 32 and summed — computed by ONE kernel over 32
   blocks of 512 rows (its matrix operands narrowed to bf16, every weight resident) against the same chain of host
   operations on all rows at once.
   Over the extended reals narrowing changes nothing, a block product into a zero accumulator and the host's dot
   product are the same sum over the contracted index, the two rectifiers are the same maximum with the zero word and
   the two cosines the same function. So both programs compute the network `Cert.Net.net`, the kernel on each block of
   512 rows (Proof/KerValue.lean) and the reference on all rows (Proof/RefValue.lean); row r of the network's output
   depends on row r of the input only, so the kernel's 32 blocks are the blocks of the network on all rows, and they
   tile the output. No law beyond that is used: neither side's sums are rearranged, and finiteness of the inputs is
   not needed. The frames are the generated ones (the reference's is its generated run with the result dropped);
   the idealization rewrote nothing, so `preserves` is `True`. -/
import proofs.«162932_j65481071396601_1_alg».proof.Defs
import proofs.«162932_j65481071396601_1_alg».proof.Proof.Gen.Kernel
import proofs.«162932_j65481071396601_1_alg».proof.Proof.Gen.Kernel.Skeleton
import proofs.«162932_j65481071396601_1_alg».proof.Proof.Gen.Kernel.Launch
import proofs.«162932_j65481071396601_1_alg».proof.Proof.Gen.Kernel.Points
import proofs.«162932_j65481071396601_1_alg».proof.Proof.Gen.Kernel.Frame
import proofs.«162932_j65481071396601_1_alg».proof.Proof.Gen.KernelIdeal
import proofs.«162932_j65481071396601_1_alg».proof.Proof.Gen.KernelIdeal.Skeleton
import proofs.«162932_j65481071396601_1_alg».proof.Proof.Gen.KernelIdeal.Launch
import proofs.«162932_j65481071396601_1_alg».proof.Proof.Gen.KernelIdeal.Points
import proofs.«162932_j65481071396601_1_alg».proof.Proof.Gen.KernelIdeal.Frame
import proofs.«162932_j65481071396601_1_alg».proof.Proof.Gen.ReferenceIdeal
import proofs.«162932_j65481071396601_1_alg».proof.Proof.Gen.Pre_finite_inputs
import proofs.«162932_j65481071396601_1_alg».proof.Proof.Gen.KernelIdeal.Value
import proofs.«162932_j65481071396601_1_alg».proof.Proof.Gen.ReferenceIdeal.Run
import proofs.«162932_j65481071396601_1_alg».proof.Proof.KerValue
import proofs.«162932_j65481071396601_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's output array ends at the network of the arguments on all rows
    (its 32 blocks tile it) and so does the reference's result (its host operations are the network's layers). -/
theorem algebraic : Cert.algebraic_KernelIdeal_ReferenceIdeal := by
  intro m ρ m' ρ' _ hagree
  refine ⟨fun c => Cert.KernelIdeal.KerValue.G m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.RefValue.result_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
